-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192x4 : Shape := ⟨2, ![8192, 4]⟩
abbrev S4x1024x1024 : Shape := ⟨3, ![4, 1024, 1024]⟩
abbrev S4x1024x4 : Shape := ⟨3, ![4, 1024, 4]⟩
abbrev S4x1024 : Shape := ⟨2, ![4, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x4 : S_.BroadcastsInDim S8192x4 (![] : Fin 0 → Fin S8192x4.rank)
  reducesTo_S8192x4_S_d0_1 : S8192x4.ReducesTo [0, 1] S_
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S4x1024x4 : S_.BroadcastsInDim S4x1024x4 (![] : Fin 0 → Fin S4x1024x4.rank)
  reducesTo_S4x1024x4_S_d0_1_2 : S4x1024x4.ReducesTo [0, 1, 2] S_
  bcast_S_S4x1024 : S_.BroadcastsInDim S4x1024 (![] : Fin 0 → Fin S4x1024.rank)
  reducesTo_S4x1024_S_d0_1 : S4x1024.ReducesTo [0, 1] S_

variable [Facts]

def fn_part2 {F : FTy → Type} [FloatOps F] (main_arg7 : FVec F S4x1024 .f32) (main_v33 : IVec S_ 1) : IVec S_ 1 :=
  let main_v34 : FVec F S4x1024 .f32 := Host.absf main_arg7
  let main_cst_12 : FVec F S_ .f32 := constant S_ .f32 0x7F800000#32
  let main_v35 : FVec F S4x1024 .f32 := broadcastInDim S4x1024 ![] bcast_S_S4x1024 main_cst_12
  let main_v36 : IVec S4x1024 1 := cmpf .olt main_v34 main_v35
  let main_c_13 : IVec S_ 1 := constantI S_ 1 1#1
  let main_v37 : IVec S_ 1 := (fun x v => Host.reduce IntOp.andi x v reducesTo_S4x1024_S_d0_1 h_S_) main_v36 main_c_13
  let main_v38 : IVec S_ 1 := andi main_v33 main_v37
  main_v38

def fn_part1 {F : FTy → Type} [FloatOps F] (main_arg4 : FVec F S4x1024x1024 .f32) (main_arg5 : FVec F S4x1024x1024 .f32) (main_arg6 : FVec F S4x1024x4 .f32) (main_arg7 : FVec F S4x1024 .f32) (main_v13 : IVec S_ 1) (main_v16 : IVec S8192x4 1) : IVec S_ 1 :=
  let main_c_5 : IVec S_ 1 := constantI S_ 1 1#1
  let main_v17 : IVec S_ 1 := (fun x v => Host.reduce IntOp.andi x v reducesTo_S8192x4_S_d0_1 h_S_) main_v16 main_c_5
  let main_v18 : IVec S_ 1 := andi main_v13 main_v17
  let main_v19 : FVec F S4x1024x1024 .f32 := Host.absf main_arg4
  let main_cst_6 : FVec F S_ .f32 := constant S_ .f32 0x7F800000#32
  let main_v20 : FVec F S4x1024x1024 .f32 := broadcastInDim S4x1024x1024 ![] bcast_S_S4x1024x1024 main_cst_6
  let main_v21 : IVec S4x1024x1024 1 := cmpf .olt main_v19 main_v20
  let main_c_7 : IVec S_ 1 := constantI S_ 1 1#1
  let main_v22 : IVec S_ 1 := (fun x v => Host.reduce IntOp.andi x v reducesTo_S4x1024x1024_S_d0_1_2 h_S_) main_v21 main_c_7
  let main_v23 : IVec S_ 1 := andi main_v18 main_v22
  let main_v24 : FVec F S4x1024x1024 .f32 := Host.absf main_arg5
  let main_cst_8 : FVec F S_ .f32 := constant S_ .f32 0x7F800000#32
  let main_v25 : FVec F S4x1024x1024 .f32 := broadcastInDim S4x1024x1024 ![] bcast_S_S4x1024x1024 main_cst_8
  let main_v26 : IVec S4x1024x1024 1 := cmpf .olt main_v24 main_v25
  let main_c_9 : IVec S_ 1 := constantI S_ 1 1#1
  let main_v27 : IVec S_ 1 := (fun x v => Host.reduce IntOp.andi x v reducesTo_S4x1024x1024_S_d0_1_2 h_S_) main_v26 main_c_9
  let main_v28 : IVec S_ 1 := andi main_v23 main_v27
  let main_v29 : FVec F S4x1024x4 .f32 := Host.absf main_arg6
  let main_cst_10 : FVec F S_ .f32 := constant S_ .f32 0x7F800000#32
  let main_v30 : FVec F S4x1024x4 .f32 := broadcastInDim S4x1024x4 ![] bcast_S_S4x1024x4 main_cst_10
  let main_v31 : IVec S4x1024x4 1 := cmpf .olt main_v29 main_v30
  let main_c_11 : IVec S_ 1 := constantI S_ 1 1#1
  let main_v32 : IVec S_ 1 := (fun x v => Host.reduce IntOp.andi x v reducesTo_S4x1024x4_S_d0_1_2 h_S_) main_v31 main_c_11
  let main_v33 : IVec S_ 1 := andi main_v28 main_v32
  fn_part2 (F := F) main_arg7 main_v33

def fn {F : FTy → Type} [FloatOps F] (main_arg0 : FVec F S8192x1024 .f32) (main_arg1 : FVec F S8192x1024 .f32) (main_arg2 : FVec F S8192x1024 .f32) (main_arg3 : FVec F S8192x4 .f32) (main_arg4 : FVec F S4x1024x1024 .f32) (main_arg5 : FVec F S4x1024x1024 .f32) (main_arg6 : FVec F S4x1024x4 .f32) (main_arg7 : FVec F S4x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192x4 .f32 := Host.absf main_arg3
  let main_cst_4 : FVec F S_ .f32 := constant S_ .f32 0x7F800000#32
  let main_v15 : FVec F S8192x4 .f32 := broadcastInDim S8192x4 ![] bcast_S_S8192x4 main_cst_4
  let main_v16 : IVec S8192x4 1 := cmpf .olt main_v14 main_v15
  fn_part1 (F := F) main_arg4 main_arg5 main_arg6 main_arg7 main_v13 main_v16
-- ==== Kernel.lean ====
abbrev S8192x1024 : Shape := ⟨2, ![8192, 1024]⟩
abbrev S8192x4 : Shape := ⟨2, ![8192, 4]⟩
abbrev S4x1024x1024 : Shape := ⟨3, ![4, 1024, 1024]⟩
abbrev S4x1024x4 : Shape := ⟨3, ![4, 1024, 4]⟩
abbrev S4x1024 : Shape := ⟨2, ![4, 1024]⟩
abbrev S4x4x1024 : Shape := ⟨3, ![4, 4, 1024]⟩
abbrev S256x1024 : Shape := ⟨2, ![256, 1024]⟩
abbrev S256x4 : Shape := ⟨2, ![256, 4]⟩
abbrev S1x1024x1024 : Shape := ⟨3, ![1, 1024, 1024]⟩
abbrev S1024x1024 : Shape := ⟨2, ![1024, 1024]⟩
abbrev S1x4x1024 : Shape := ⟨3, ![1, 4, 1024]⟩
abbrev S1x1024 : Shape := ⟨2, ![1, 1024]⟩
abbrev S1024 : Shape := ⟨1, ![1024]⟩

abbrev nBuf : Space → Nat
  | .hbm => 19
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x4, .f32⟩
  | .hbm, ⟨4, _⟩ => ⟨S4x1024x1024, .f32⟩
  | .hbm, ⟨5, _⟩ => ⟨S4x1024x1024, .f32⟩
  | .hbm, ⟨6, _⟩ => ⟨S4x1024x4, .f32⟩
  | .hbm, ⟨7, _⟩ => ⟨S4x1024, .f32⟩
  | .hbm, ⟨8, _⟩ => ⟨S8192x1024, .bf16⟩
  | .hbm, ⟨9, _⟩ => ⟨S8192x1024, .bf16⟩
  | .hbm, ⟨10, _⟩ => ⟨S8192x4, .bf16⟩
  | .hbm, ⟨11, _⟩ => ⟨S4x1024x1024, .f32⟩
  | .hbm, ⟨12, _⟩ => ⟨S4x1024x1024, .bf16⟩
  | .hbm, ⟨13, _⟩ => ⟨S4x1024x1024, .f32⟩
  | .hbm, ⟨14, _⟩ => ⟨S4x1024x1024, .bf16⟩
  | .hbm, ⟨15, _⟩ => ⟨S4x4x1024, .f32⟩
  | .hbm, ⟨16, _⟩ => ⟨S4x4x1024, .bf16⟩
  | .hbm, ⟨17, _⟩ => ⟨S8192x1024, .f32⟩
  | .hbm, ⟨18, _⟩ => ⟨S8192x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S256x4, .bf16⟩
  | .local _ .vmem, ⟨7, _⟩ => ⟨S256x4, .bf16⟩
  | .local _ .vmem, ⟨8, _⟩ => ⟨S4x1024x1024, .bf16⟩
  | .local _ .vmem, ⟨9, _⟩ => ⟨S4x1024x1024, .bf16⟩
  | .local _ .vmem, ⟨10, _⟩ => ⟨S4x4x1024, .bf16⟩
  | .local _ .vmem, ⟨11, _⟩ => ⟨S4x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x4x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bitsLt_bf16_f32 : FTy.bits .bf16 < FTy.bits .f32
  transposes_S4x1024x1024_S4x1024x1024_0_2_1 : S4x1024x1024.Transposes [0, 2, 1] S4x1024x1024
  transposes_S4x1024x4_S4x4x1024_0_2_1 : S4x1024x4.Transposes [0, 2, 1] S4x4x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S256x4_S256x4_0_0 : ∀ a, (![0, 0] : Fin 2 → Nat) a + S256x4.size a ≤ S256x4.size a
  h_S256x4 : 0 < S256x4.numel
  shapeCasts_S256x4_S256x4 : S256x4.ShapeCasts S256x4
  inb_S4x1024x1024_S1x1024x1024_0_0_0 : ∀ a, (![0, 0, 0] : Fin 3 → Nat) a + S1x1024x1024.size a ≤ S4x1024x1024.size a
  h_S1x1024x1024 : 0 < S1x1024x1024.numel
  shapeCasts_S1x1024x1024_S1024x1024 : S1x1024x1024.ShapeCasts S1024x1024
  inb_S4x4x1024_S1x4x1024_0_0_0 : ∀ a, (![0, 0, 0] : Fin 3 → Nat) a + S1x4x1024.size a ≤ S4x4x1024.size a
  h_S1x4x1024 : 0 < S1x4x1024.numel
  shapeCasts_S1x4x1024_S4x1024 : S1x4x1024.ShapeCasts S4x1024
  inb_S4x1024_S1x1024_0_0 : ∀ a, (![0, 0] : Fin 2 → Nat) a + S1x1024.size a ≤ S4x1024.size a
  h_S1x1024 : 0 < S1x1024.numel
  shapeCasts_S1x1024_S1024 : S1x1024.ShapeCasts S1024
  shapeCasts_S1024_S1x1024 : S1024.ShapeCasts S1x1024
  broadcasts_S1x1024_S256x1024 : S1x1024.Broadcasts S256x1024
  inb_S4x1024x1024_S1x1024x1024_1_0_0 : ∀ a, (![1, 0, 0] : Fin 3 → Nat) a + S1x1024x1024.size a ≤ S4x1024x1024.size a
  inb_S4x4x1024_S1x4x1024_1_0_0 : ∀ a, (![1, 0, 0] : Fin 3 → Nat) a + S1x4x1024.size a ≤ S4x4x1024.size a
  inb_S4x1024_S1x1024_1_0 : ∀ a, (![1, 0] : Fin 2 → Nat) a + S1x1024.size a ≤ S4x1024.size a
  inb_S4x1024x1024_S1x1024x1024_2_0_0 : ∀ a, (![2, 0, 0] : Fin 3 → Nat) a + S1x1024x1024.size a ≤ S4x1024x1024.size a
  inb_S4x4x1024_S1x4x1024_2_0_0 : ∀ a, (![2, 0, 0] : Fin 3 → Nat) a + S1x4x1024.size a ≤ S4x4x1024.size a
  inb_S4x1024_S1x1024_2_0 : ∀ a, (![2, 0] : Fin 2 → Nat) a + S1x1024.size a ≤ S4x1024.size a
  inb_S4x1024x1024_S1x1024x1024_3_0_0 : ∀ a, (![3, 0, 0] : Fin 3 → Nat) a + S1x1024x1024.size a ≤ S4x1024x1024.size a
  inb_S4x4x1024_S1x4x1024_3_0_0 : ∀ a, (![3, 0, 0] : Fin 3 → Nat) a + S1x4x1024.size a ≤ S4x4x1024.size a
  inb_S4x1024_S1x1024_3_0 : ∀ a, (![3, 0] : Fin 2 → Nat) a + S1x1024.size a ≤ S4x1024.size a
  dot_S256x1024_S1024x1024_S256x1024_1_0_0_1_n_n_wf : DotDims.WF S256x1024 S1024x1024 S256x1024 [1] [0] [0] [1] [] []
  dot_S256x4_S4x1024_S256x1024_1_0_0_1_n_n_wf : DotDims.WF S256x4 S4x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .bf16 = 32 ∨ (Rect.block (s := S8192x1024) S256x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .bf16 = 32 ∨ (Rect.block (s := S8192x1024) S256x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4.size a ≤ S8192x4.size a
  hwx0_3 : ∀ i : grid0.Coords, EltTy.bits .bf16 = 32 ∨ (Rect.block (s := S8192x4) S256x4.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x1024x1024.size a ≤ S4x1024x1024.size a
  hwx0_4 : ∀ i : grid0.Coords, EltTy.bits .bf16 = 32 ∨ (Rect.block (s := S4x1024x1024) S4x1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x1024x1024.size a ≤ S4x1024x1024.size a
  hwx0_5 : ∀ i : grid0.Coords, EltTy.bits .bf16 = 32 ∨ (Rect.block (s := S4x1024x1024) S4x1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x4x1024.size a ≤ S4x4x1024.size a
  hwx0_6 : ∀ i : grid0.Coords, EltTy.bits .bf16 = 32 ∨ (Rect.block (s := S4x4x1024) S4x4x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4x1024.size a ≤ S4x1024.size a
  hwx0_7 : ∀ i : grid0.Coords, EltTy.bits .f32 = 32 ∨ (Rect.block (s := S4x1024) S4x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S8192x1024.size a
  hwx0_8 : ∀ i : grid0.Coords, EltTy.bits .f32 = 32 ∨ (Rect.block (s := S8192x1024) S256x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x1024.size a ≤ S8192x1024.size a
  hwx0_9 : ∀ i : grid0.Coords, EltTy.bits .f32 = 32 ∨ (Rect.block (s := S8192x1024) S256x1024.size (cc0_transform_9 i) (hinb0_9 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x4_S4x1024_S256x1024_1_0_0_1_n_n : DotDims S256x4 S4x1024 S256x1024 where
  lhsContracting := [1]
  rhsContracting := [0]
  lhsNonContracting := [0]
  rhsNonContracting := [1]
  lhsBatch := []
  rhsBatch := []
  wf := dot_S256x4_S4x1024_S256x1024_1_0_0_1_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x4.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S4x1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S4x1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S4x4x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S4x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9_0) S256x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v9_1) S256x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S8192x4 : Shape := ⟨2, ![8192, 4]⟩
abbrev S4x1024x1024 : Shape := ⟨3, ![4, 1024, 1024]⟩
abbrev S4x1024x4 : Shape := ⟨3, ![4, 1024, 4]⟩
abbrev S4x1024 : Shape := ⟨2, ![4, 1024]⟩
abbrev S8192x4x1024 : Shape := ⟨3, ![8192, 4, 1024]⟩
abbrev S1x4x1024 : Shape := ⟨3, ![1, 4, 1024]⟩
abbrev S8192x1x1024 : Shape := ⟨3, ![8192, 1, 1024]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x4, .f32⟩
  | .hbm, ⟨4, _⟩ => ⟨S4x1024x1024, .f32⟩
  | .hbm, ⟨5, _⟩ => ⟨S4x1024x1024, .f32⟩
  | .hbm, ⟨6, _⟩ => ⟨S4x1024x4, .f32⟩
  | .hbm, ⟨7, _⟩ => ⟨S4x1024, .f32⟩
  | .hbm, ⟨8, _⟩ => ⟨S8192x4x1024, .f32⟩
  | .hbm, ⟨9, _⟩ => ⟨S8192x4x1024, .f32⟩
  | .hbm, ⟨10, _⟩ => ⟨S8192x4x1024, .f32⟩
  | .hbm, ⟨11, _⟩ => ⟨S8192x4x1024, .f32⟩
  | .hbm, ⟨12, _⟩ => ⟨S8192x4x1024, .f32⟩
  | .hbm, ⟨13, _⟩ => ⟨S1x4x1024, .f32⟩
  | .hbm, ⟨14, _⟩ => ⟨S8192x4x1024, .f32⟩
  | .hbm, ⟨15, _⟩ => ⟨S8192x4x1024, .f32⟩
  | .hbm, ⟨16, _⟩ => ⟨S8192x1x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S8192x1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S8192x1x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S8192x1x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]

class Facts₀ : Prop where
  bcast_S4x1024_S1x4x1024_1_2 : S4x1024.BroadcastsInDim S1x4x1024 (![1, 2] : Fin 2 → Fin S1x4x1024.rank)
  bcast_S1x4x1024_S8192x4x1024_0_1_2 : S1x4x1024.BroadcastsInDim S8192x4x1024 (![0, 1, 2] : Fin 3 → Fin S8192x4x1024.rank)
  slices_S8192x4x1024_S8192x1x1024_0_0_0 : S8192x4x1024.Slices ![0, 0, 0] S8192x1x1024
  shapeCasts_S8192x1x1024_S8192x1024 : S8192x1x1024.ShapeCasts S8192x1024
  bcast_S_S8192x1024 : S_.BroadcastsInDim S8192x1024 (![] : Fin 0 → Fin S8192x1024.rank)
  slices_S8192x4x1024_S8192x1x1024_0_1_0 : S8192x4x1024.Slices ![0, 1, 0] S8192x1x1024
  slices_S8192x4x1024_S8192x1x1024_0_2_0 : S8192x4x1024.Slices ![0, 2, 0] S8192x1x1024
  slices_S8192x4x1024_S8192x1x1024_0_3_0 : S8192x4x1024.Slices ![0, 3, 0] S8192x1x1024
  dot_S8192x1024_S4x1024x1024_S8192x4x1024_1_2_0_01_n_n_wf : DotDims.WF S8192x1024 S4x1024x1024 S8192x4x1024 [1] [2] [0] [0, 1] [] []
  dot_S8192x4_S4x1024x4_S8192x4x1024_1_2_0_01_n_n_wf : DotDims.WF S8192x4 S4x1024x4 S8192x4x1024 [1] [2] [0] [0, 1] [] []

variable [Facts₀]

def dot_S8192x1024_S4x1024x1024_S8192x4x1024_1_2_0_01_n_n : DotDims S8192x1024 S4x1024x1024 S8192x4x1024 where
  lhsContracting := [1]
  rhsContracting := [2]
  lhsNonContracting := [0]
  rhsNonContracting := [0, 1]
  lhsBatch := []
  rhsBatch := []
  wf := dot_S8192x1024_S4x1024x1024_S8192x4x1024_1_2_0_01_n_n_wf
def dot_S8192x4_S4x1024x4_S8192x4x1024_1_2_0_01_n_n : DotDims S8192x4 S4x1024x4 S8192x4x1024 where
  lhsContracting := [1]
  rhsContracting := [2]
  lhsNonContracting := [0]
  rhsNonContracting := [0, 1]
  lhsBatch := []
  rhsBatch := []
  wf := dot_S8192x4_S4x1024x4_S8192x4x1024_1_2_0_01_n_n_wf

class Facts : Prop extends Facts₀ where

variable [Facts]
-- ==== Proof.Spec.lean ====
/-
  The arithmetic of one gated recurrent cell step, as functions of the eight argument arrays, index by index,
  over the extended reals.

  For a batch row `r`, a hidden unit `j` and a gate `g` (0 input, 1 forget, 2 output, 3 candidate) the gate's
  pre-activation is
      pre g r j = ((Σ_k x[r,k]·Wx[g,j,k]) + (Σ_k h[r,k]·Wh[g,j,k])) + (Σ_k n[r,k]·Wn[g,j,k]) + b[g,j],
  the new cell state is  σ(pre 1)·c + σ(pre 0)·tanh(pre 3)  and the new hidden state is  σ(pre 2)·tanh(new cell),
  with σ the logistic function  1 / (1 + e^(-z))  and every operation the exact one on the extended reals.
  Both programs compute exactly these two arrays; the sums are taken in this order of the three terms and the
  bias is added last, on both sides, so no law of the extended reals beyond the definitions is needed.
-/
import Idealize.ShloMosaic.PureOps.Ideal
import Idealize.ShloMosaic.PureOps.Ideal.Laws
import Idealize.ShloMosaic.PureOps.IdealRules
import Idealize.ShloMosaic.Lib.ValueIdx

noncomputable section

namespace Cert.GatedCell

open Idealize.ShloMosaic Idealize.ShloMosaic.ValueIdx

/-- activations and states: batch × features -/
abbrev Act : Shape := ⟨2, ![8192, 1024]⟩
/-- neighbour features: batch × 4 -/
abbrev Nbr : Shape := ⟨2, ![8192, 4]⟩
/-- a stack of four square weight matrices: gate × out × in -/
abbrev Wsq : Shape := ⟨3, ![4, 1024, 1024]⟩
/-- the neighbour weights: gate × out × 4 -/
abbrev Wnb : Shape := ⟨3, ![4, 1024, 4]⟩
/-- the biases: gate × out -/
abbrev Bia : Shape := ⟨2, ![4, 1024]⟩

/-- Gate `g`'s pre-activation at batch row `r` and hidden unit `j`: the three projections summed in the order
    input, hidden, neighbours, then the bias. -/
def pre (x h : Act.Idx → EReal) (n : Nbr.Idx → EReal) (Wx Wh : Wsq.Idx → EReal) (Wn : Wnb.Idx → EReal)
    (b : Bia.Idx → EReal) (g : Fin 4) (r : Fin 8192) (j : Fin 1024) : EReal :=
  (∑ k : Fin 1024, x (ix2 r k) * Wx (ix3 g j k)) + (∑ k : Fin 1024, h (ix2 r k) * Wh (ix3 g j k))
    + (∑ k : Fin 4, n (ix2 r k) * Wn (ix3 g j k)) + b (ix2 g j)

/-- The new cell state: forget gate times the old cell plus input gate times the candidate. -/
def cellNew (x h c : Act.Idx → EReal) (n : Nbr.Idx → EReal) (Wx Wh : Wsq.Idx → EReal) (Wn : Wnb.Idx → EReal)
    (b : Bia.Idx → EReal) : Act.Idx → EReal := fun i =>
  Ideal.logistic (pre x h n Wx Wh Wn b 1 (i 0) (i 1)) * c i
    + Ideal.logistic (pre x h n Wx Wh Wn b 0 (i 0) (i 1)) * Ideal.tanh (pre x h n Wx Wh Wn b 3 (i 0) (i 1))

/-- The new hidden state: output gate times tanh of the new cell state. -/
def hidNew (x h c : Act.Idx → EReal) (n : Nbr.Idx → EReal) (Wx Wh : Wsq.Idx → EReal) (Wn : Wnb.Idx → EReal)
    (b : Bia.Idx → EReal) : Act.Idx → EReal := fun i =>
  Ideal.logistic (pre x h n Wx Wh Wn b 2 (i 0) (i 1)) * Ideal.tanh (cellNew x h c n Wx Wh Wn b i)

/-- The f32 pattern of 1.0 denotes the extended real 1. -/
theorem one_f32 : Ideal.ofBits .f32 0x3F800000#32 = 1 := IdealRules.sign_bit.ideal_onePat .f32

/-- The logistic function spelt with a quotient, a sum, an exponential and a negation, the ones written as the
    f32 pattern of 1.0, is the logistic function. -/
theorem logistic_spelt (z : EReal) :
    Ideal.div (Ideal.ofBits .f32 0x3F800000#32) (Ideal.ofBits .f32 0x3F800000#32 + Ideal.exp (-z)) = Ideal.logistic z := by
  rw [one_f32]; rfl

end Cert.GatedCell

end
-- ==== Proof.RefValue.lean ====
/-
  The reference's two results, read index by index, are the gated-cell functions of the arguments.

  The reference forms all four gates' pre-activations as one [batch, gate, unit] array (three contractions over the
  last axis of each weight stack, summed, plus the bias broadcast over the batch), takes gate `g`'s slice, applies
  the logistic function spelt as 1/(1 + e^(-z)) (gates 0, 1, 2) or tanh (gate 3), and combines them with the old
  cell state.  Entry (r, g, j) of the gate array is `pre g r j`; the slice-and-reshape of gate `g` at (r, j) reads
  entry (r, g, j).
-/
import proofs.«132061_j38792144618011_1_alg».proof.Proof.Gen.ReferenceIdeal.Read
import proofs.«132061_j38792144618011_1_alg».proof.Proof.Spec

noncomputable section

namespace Cert.GatedCell.Ref

open Cert.ReferenceIdeal Cert.ReferenceIdeal.Read Idealize.ShloMosaic Idealize.ShloMosaic.ValueIdx Cert.GatedCell

variable (x0 x1 x2 : Act.Idx → EReal) (x3 : Nbr.Idx → EReal) (x4 x5 : Wsq.Idx → EReal) (x6 : Wnb.Idx → EReal)
  (x7 : Bia.Idx → EReal)

/-- Entry (r, g, j) of the reference's gate array is gate `g`'s pre-activation at (r, j). -/
theorem gates_apply (r : Fin 8192) (g : Fin 4) (j : Fin 1024) :
    val_main_v7 (F := Ideal) x0 x1 x3 x4 x5 x6 x7 (ix3 r g j) = pre x0 x1 x3 x4 x5 x6 x7 g r j := by
  have el0 : ∀ k, lidx_main_v0 (ix3 r g j) k = ix2 r k := fun k => funext fun a => by
    match a with | ⟨0, _⟩ => rfl | ⟨1, _⟩ => rfl
  have er0 : ∀ k, ridx_main_v0 (ix3 r g j) k = ix3 g j k := fun k => funext fun a => by
    match a with | ⟨0, _⟩ => rfl | ⟨1, _⟩ => rfl | ⟨2, _⟩ => rfl
  have el1 : ∀ k, lidx_main_v1 (ix3 r g j) k = ix2 r k := fun k => funext fun a => by
    match a with | ⟨0, _⟩ => rfl | ⟨1, _⟩ => rfl
  have er1 : ∀ k, ridx_main_v1 (ix3 r g j) k = ix3 g j k := fun k => funext fun a => by
    match a with | ⟨0, _⟩ => rfl | ⟨1, _⟩ => rfl | ⟨2, _⟩ => rfl
  have el3 : ∀ k, lidx_main_v3 (ix3 r g j) k = ix2 r k := fun k => funext fun a => by
    match a with | ⟨0, _⟩ => rfl | ⟨1, _⟩ => rfl
  have er3 : ∀ k, ridx_main_v3 (ix3 r g j) k = ix3 g j k := fun k => funext fun a => by
    match a with | ⟨0, _⟩ => rfl | ⟨1, _⟩ => rfl | ⟨2, _⟩ => rfl
  have eb : idx_main_v5 (idx_main_v6 (ix3 r g j)) = ix2 g j := funext fun a => by
    match a with | ⟨0, _⟩ => rfl | ⟨1, _⟩ => rfl
  rw [val_main_v7_apply, val_main_v4_apply, val_main_v2_apply, val_main_v0_apply, val_main_v1_apply,
    val_main_v3_apply, val_main_v6_apply, val_main_v5_apply]
  simp only [el0, er0, el1, er1, el3, er3, eb]
  rfl

/-- Gate 0's slice, reshaped to [batch, unit], at `i` is the gate array at (i 0, 0, i 1). -/
theorem slice0_apply (i : Act.Idx) :
    val_main_v9 (F := Ideal) x0 x1 x3 x4 x5 x6 x7 i = pre x0 x1 x3 x4 x5 x6 x7 0 (i 0) (i 1) := by
  rw [val_main_v9_apply, val_main_v8_apply]
  refine Eq.trans (congrArg (val_main_v7 (F := Ideal) x0 x1 x3 x4 x5 x6 x7) ?_) (gates_apply x0 x1 x3 x4 x5 x6 x7 (i 0) 0 (i 1))
  funext a; apply Fin.ext
  have h0 : (i 0).val < 8192 := (i 0).isLt
  have h1 : (i 1).val < 1024 := (i 1).isLt
  match a with
  | ⟨0, _⟩ => show ((i 0).val * 1024 + (i 1).val) / 1024 = (i 0).val; omega
  | ⟨1, _⟩ => rfl
  | ⟨2, _⟩ => show ((i 0).val * 1024 + (i 1).val) % 1024 = (i 1).val; omega

/-- Gate 1's slice at `i`. -/
theorem slice1_apply (i : Act.Idx) :
    val_main_v17 (F := Ideal) x0 x1 x3 x4 x5 x6 x7 i = pre x0 x1 x3 x4 x5 x6 x7 1 (i 0) (i 1) := by
  rw [val_main_v17_apply, val_main_v16_apply]
  refine Eq.trans (congrArg (val_main_v7 (F := Ideal) x0 x1 x3 x4 x5 x6 x7) ?_) (gates_apply x0 x1 x3 x4 x5 x6 x7 (i 0) 1 (i 1))
  funext a; apply Fin.ext
  have h0 : (i 0).val < 8192 := (i 0).isLt
  have h1 : (i 1).val < 1024 := (i 1).isLt
  match a with
  | ⟨0, _⟩ => show ((i 0).val * 1024 + (i 1).val) / 1024 = (i 0).val; omega
  | ⟨1, _⟩ => rfl
  | ⟨2, _⟩ => show ((i 0).val * 1024 + (i 1).val) % 1024 = (i 1).val; omega

/-- Gate 2's slice at `i`. -/
theorem slice2_apply (i : Act.Idx) :
    val_main_v25 (F := Ideal) x0 x1 x3 x4 x5 x6 x7 i = pre x0 x1 x3 x4 x5 x6 x7 2 (i 0) (i 1) := by
  rw [val_main_v25_apply, val_main_v24_apply]
  refine Eq.trans (congrArg (val_main_v7 (F := Ideal) x0 x1 x3 x4 x5 x6 x7) ?_) (gates_apply x0 x1 x3 x4 x5 x6 x7 (i 0) 2 (i 1))
  funext a; apply Fin.ext
  have h0 : (i 0).val < 8192 := (i 0).isLt
  have h1 : (i 1).val < 1024 := (i 1).isLt
  match a with
  | ⟨0, _⟩ => show ((i 0).val * 1024 + (i 1).val) / 1024 = (i 0).val; omega
  | ⟨1, _⟩ => rfl
  | ⟨2, _⟩ => show ((i 0).val * 1024 + (i 1).val) % 1024 = (i 1).val; omega

/-- Gate 3's slice at `i`. -/
theorem slice3_apply (i : Act.Idx) :
    val_main_v33 (F := Ideal) x0 x1 x3 x4 x5 x6 x7 i = pre x0 x1 x3 x4 x5 x6 x7 3 (i 0) (i 1) := by
  rw [val_main_v33_apply, val_main_v32_apply]
  refine Eq.trans (congrArg (val_main_v7 (F := Ideal) x0 x1 x3 x4 x5 x6 x7) ?_) (gates_apply x0 x1 x3 x4 x5 x6 x7 (i 0) 3 (i 1))
  funext a; apply Fin.ext
  have h0 : (i 0).val < 8192 := (i 0).isLt
  have h1 : (i 1).val < 1024 := (i 1).isLt
  match a with
  | ⟨0, _⟩ => show ((i 0).val * 1024 + (i 1).val) / 1024 = (i 0).val; omega
  | ⟨1, _⟩ => rfl
  | ⟨2, _⟩ => show ((i 0).val * 1024 + (i 1).val) % 1024 = (i 1).val; omega

/-- The input gate: the logistic function of gate 0's pre-activation. -/
theorem inGate_apply (i : Act.Idx) :
    val_main_v15 (F := Ideal) x0 x1 x3 x4 x5 x6 x7 i = Ideal.logistic (pre x0 x1 x3 x4 x5 x6 x7 0 (i 0) (i 1)) := by
  rw [val_main_v15_apply, val_main_v14_apply, val_main_cst_0_apply, val_main_v13_apply, val_main_v12_apply,
    val_main_cst_apply, val_main_v11_apply, val_main_v10_apply, slice0_apply]
  exact logistic_spelt _

/-- The forget gate. -/
theorem forgetGate_apply (i : Act.Idx) :
    val_main_v23 (F := Ideal) x0 x1 x3 x4 x5 x6 x7 i = Ideal.logistic (pre x0 x1 x3 x4 x5 x6 x7 1 (i 0) (i 1)) := by
  rw [val_main_v23_apply, val_main_v22_apply, val_main_cst_2_apply, val_main_v21_apply, val_main_v20_apply,
    val_main_cst_1_apply, val_main_v19_apply, val_main_v18_apply, slice1_apply]
  exact logistic_spelt _

/-- The output gate. -/
theorem outGate_apply (i : Act.Idx) :
    val_main_v31 (F := Ideal) x0 x1 x3 x4 x5 x6 x7 i = Ideal.logistic (pre x0 x1 x3 x4 x5 x6 x7 2 (i 0) (i 1)) := by
  rw [val_main_v31_apply, val_main_v30_apply, val_main_cst_4_apply, val_main_v29_apply, val_main_v28_apply,
    val_main_cst_3_apply, val_main_v27_apply, val_main_v26_apply, slice2_apply]
  exact logistic_spelt _

/-- The reference's second result is the new cell state. -/
theorem cell_eq : val_main_v37 (F := Ideal) x0 x1 x2 x3 x4 x5 x6 x7 = cellNew x0 x1 x2 x3 x4 x5 x6 x7 := by
  funext i
  rw [val_main_v37_apply, val_main_v35_apply, val_main_v36_apply, val_main_v34_apply, forgetGate_apply,
    inGate_apply, slice3_apply]
  rfl

/-- The reference's first result is the new hidden state. -/
theorem hid_eq : val_main_v39 (F := Ideal) x0 x1 x2 x3 x4 x5 x6 x7 = hidNew x0 x1 x2 x3 x4 x5 x6 x7 := by
  funext i
  rw [val_main_v39_apply, val_main_v38_apply, outGate_apply, cell_eq]
  rfl

end Cert.GatedCell.Ref

end
-- ==== Proof.Payload.lean ====
/-
  The kernel body's arithmetic at one element of its output block.

  Over one batch tile of 256 rows the body forms, for each gate g, the three products
      x_tile · Wxᵀ[g]   (256×1024 by 1024×1024),   h_tile · Whᵀ[g],   n_tile · Wnᵀ[g]   (256×4 by 4×1024),
  each into a zero accumulator, adds them in that order, adds the bias row g broadcast over the rows, and then
  combines the four gates as the new cell and hidden states.  At element (p, q) a product into zero is the plain sum
  over the contracted index, a weight stack's gate g read through its unit leading axis is the stack at (g, ·, ·), and
  the bias row broadcast reads bias (g, q).
-/
import proofs.«132061_j38792144618011_1_alg».proof.Proof.Gen.KernelIdeal.Frame
import proofs.«132061_j38792144618011_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.GatedCell.Ker

open Cert.KernelIdeal Cert.KernelIdeal.Gen Idealize.ShloMosaic Idealize.ShloMosaic.ValueIdx

/-! ## The two contractions read at an element -/

theorem lhs_sq_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem lhs_sq_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem rhs_sq_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
theorem rhs_sq_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- A 256×1024 by 1024×1024 product into zero, at (p, q): the sum over k of A (p, k) · B (k, q). -/
theorem matmul_sq_apply (A : FVec Ideal S256x1024 .bf16) (B : FVec Ideal S1024x1024 .bf16) (p : Fin 256) (q : Fin 1024) :
    matmul dot_S256x1024_S1024x1024_S256x1024_1_0_0_1_n_n none A B (constant S256x1024 .f32 0x00000000#32) (ix2 p q)
      = ∑ k : Fin 1024, A (ix2 p k) * B (ix2 k q) := by
  simp only [matmul]
  rw [Ideal.matmul_constant_zero_apply, ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 p q) ((contrEquiv1 dot_S256x1024_S1024x1024_S256x1024_1_0_0_1_n_n 1024 rfl rfl).symm k) = ix2 p k := funext fun a => Fin.ext (by
    match a with
    | ⟨0, _⟩ => exact lhs_sq_0 _ _
    | ⟨1, _⟩ => exact (lhs_sq_1 _ _).trans hk)
  have er : dot_S256x1024_S1024x1024_S256x1024_1_0_0_1_n_n.rhsIdx (ix2 p q) ((contrEquiv1 dot_S256x1024_S1024x1024_S256x1024_1_0_0_1_n_n 1024 rfl rfl).symm k) = ix2 k q := funext fun a => Fin.ext (by
    match a with
    | ⟨0, _⟩ => exact (rhs_sq_0 _ _).trans hk
    | ⟨1, _⟩ => exact rhs_sq_1 _ _)
  rw [el, er]

theorem lhs_nb_0 (i : S256x1024.Idx) (q : dot_S256x4_S4x1024_S256x1024_1_0_0_1_n_n.contr.Idx) :
    (dot_S256x4_S4x1024_S256x1024_1_0_0_1_n_n.lhsIdx i q 0).val = (i 0).val := by
  unfold DotDims.lhsIdx
  rw [dif_neg (show ¬(0 : Fin S256x4.rank) ∈ dot_S256x4_S4x1024_S256x1024_1_0_0_1_n_n.lhsBatch by decide), dif_pos (show (0 : Fin S256x4.rank) ∈ dot_S256x4_S4x1024_S256x1024_1_0_0_1_n_n.lhsNonContracting by decide)]
  rfl
theorem lhs_nb_1 (i : S256x1024.Idx) (q : dot_S256x4_S4x1024_S256x1024_1_0_0_1_n_n.contr.Idx) :
    (dot_S256x4_S4x1024_S256x1024_1_0_0_1_n_n.lhsIdx i q 1).val = (q ⟨0, by decide⟩).val :=
  dot_S256x4_S4x1024_S256x1024_1_0_0_1_n_n.lhsIdx_val_of_single rfl i q
theorem rhs_nb_0 (i : S256x1024.Idx) (q : dot_S256x4_S4x1024_S256x1024_1_0_0_1_n_n.contr.Idx) :
    (dot_S256x4_S4x1024_S256x1024_1_0_0_1_n_n.rhsIdx i q 0).val = (q ⟨0, by decide⟩).val :=
  dot_S256x4_S4x1024_S256x1024_1_0_0_1_n_n.rhsIdx_val_of_single rfl i q
theorem rhs_nb_1 (i : S256x1024.Idx) (q : dot_S256x4_S4x1024_S256x1024_1_0_0_1_n_n.contr.Idx) :
    (dot_S256x4_S4x1024_S256x1024_1_0_0_1_n_n.rhsIdx i q 1).val = (i 1).val := by
  unfold DotDims.rhsIdx
  rw [dif_neg (show ¬(1 : Fin S4x1024.rank) ∈ dot_S256x4_S4x1024_S256x1024_1_0_0_1_n_n.rhsBatch by decide), dif_pos (show (1 : Fin S4x1024.rank) ∈ dot_S256x4_S4x1024_S256x1024_1_0_0_1_n_n.rhsNonContracting by decide)]
  rfl

/-- A 256×4 by 4×1024 product into zero, at (p, q): the sum over the four k of A (p, k) · B (k, q). -/
theorem matmul_nb_apply (A : FVec Ideal S256x4 .bf16) (B : FVec Ideal S4x1024 .bf16) (p : Fin 256) (q : Fin 1024) :
    matmul dot_S256x4_S4x1024_S256x1024_1_0_0_1_n_n none A B (constant S256x1024 .f32 0x00000000#32) (ix2 p q)
      = ∑ k : Fin 4, A (ix2 p k) * B (ix2 k q) := by
  simp only [matmul]
  rw [Ideal.matmul_constant_zero_apply, ← Equiv.sum_comp (contrEquiv1 dot_S256x4_S4x1024_S256x1024_1_0_0_1_n_n 4 rfl rfl).symm]
  refine Finset.sum_congr rfl fun k _ => ?_
  have hk := contrEquiv1_symm_val dot_S256x4_S4x1024_S256x1024_1_0_0_1_n_n 4 rfl rfl k
  have el : dot_S256x4_S4x1024_S256x1024_1_0_0_1_n_n.lhsIdx (ix2 p q) ((contrEquiv1 dot_S256x4_S4x1024_S256x1024_1_0_0_1_n_n 4 rfl rfl).symm k) = ix2 p k := funext fun a => Fin.ext (by
    match a with
    | ⟨0, _⟩ => exact lhs_nb_0 _ _
    | ⟨1, _⟩ => exact (lhs_nb_1 _ _).trans hk)
  have er : dot_S256x4_S4x1024_S256x1024_1_0_0_1_n_n.rhsIdx (ix2 p q) ((contrEquiv1 dot_S256x4_S4x1024_S256x1024_1_0_0_1_n_n 4 rfl rfl).symm k) = ix2 k q := funext fun a => Fin.ext (by
    match a with
    | ⟨0, _⟩ => exact (rhs_nb_0 _ _).trans hk
    | ⟨1, _⟩ => exact rhs_nb_1 _ _)
  rw [el, er]

/-! ## The layout operations at an element -/

/-- One gate's square weights, read through the unit leading axis, at (k, q). -/
theorem wsq_cast_apply (w : FVec Ideal S1x1024x1024 .bf16) (k q : Fin 1024) :
    shapeCast S1024x1024 w shapeCasts_S1x1024x1024_S1024x1024 (ix2 k q) = w (ix3 0 k q) :=
  shapeCast_1ab_ab_apply w _ k q

/-- One gate's neighbour weights, read through the unit leading axis, at (k, q). -/
theorem wnb_cast_apply (w : FVec Ideal S1x4x1024 .bf16) (k : Fin 4) (q : Fin 1024) :
    shapeCast S4x1024 w shapeCasts_S1x4x1024_S4x1024 (ix2 k q) = w (ix3 0 k q) :=
  shapeCast_1ab_ab_apply w _ k q

/-- One gate's bias row, flattened, given back its unit axis and broadcast over the tile's rows, at (p, q). -/
theorem bias_bcast_apply (b : FVec Ideal S1x1024 .f32) (p : Fin 256) (q : Fin 1024) :
    broadcastTo S256x1024 (shapeCast S1x1024 (shapeCast S1024 b shapeCasts_S1x1024_S1024) shapeCasts_S1024_S1x1024)
      broadcasts_S1x1024_S256x1024 (ix2 p q) = b (ix2 0 q) := by
  rw [broadcastTo_1b_ab_apply, shapeCast_a_1a_apply, shapeCast_1a_a_apply]

/-- The body's shape casts of a tile to its own shape change nothing. -/
theorem pay3_eq (v : FVec Ideal S256x1024 .bf16) : k0_pay3 v = v := shapeCast_self v _
theorem pay4_eq (v : FVec Ideal S256x1024 .bf16) : k0_pay4 v = v := shapeCast_self v _
theorem pay5_eq (v : FVec Ideal S256x4 .bf16) : k0_pay5 v = v := shapeCast_self v _

/-! ## One gate over a tile -/

/-- Gate pre-activation at row `p`, unit `q` of a tile, from the tile's activations and ONE gate's weights and bias
    (each still carrying its unit leading axis). -/
def gateTile (xb hb : FVec Ideal S256x1024 .bf16) (nb : FVec Ideal S256x4 .bf16) (wx wh : FVec Ideal S1x1024x1024 .bf16)
    (wn : FVec Ideal S1x4x1024 .bf16) (bs : FVec Ideal S1x1024 .f32) (p : Fin 256) (q : Fin 1024) : EReal :=
  (∑ k : Fin 1024, xb (ix2 p k) * wx (ix3 0 k q)) + (∑ k : Fin 1024, hb (ix2 p k) * wh (ix3 0 k q))
    + (∑ k : Fin 4, nb (ix2 p k) * wn (ix3 0 k q)) + bs (ix2 0 q)

/-- The body's sum of the three products and the broadcast bias, at (p, q). -/
theorem gate_sum_apply (xb hb : FVec Ideal S256x1024 .bf16) (nb : FVec Ideal S256x4 .bf16) (wx wh : FVec Ideal S1x1024x1024 .bf16)
    (wn : FVec Ideal S1x4x1024 .bf16) (bs : FVec Ideal S1x1024 .f32) (p : Fin 256) (q : Fin 1024) :
    addf (addf (addf
        (matmul dot_S256x1024_S1024x1024_S256x1024_1_0_0_1_n_n none xb (shapeCast S1024x1024 wx shapeCasts_S1x1024x1024_S1024x1024) (constant S256x1024 .f32 0x00000000#32))
        (matmul dot_S256x1024_S1024x1024_S256x1024_1_0_0_1_n_n none hb (shapeCast S1024x1024 wh shapeCasts_S1x1024x1024_S1024x1024) (constant S256x1024 .f32 0x00000000#32)))
        (matmul dot_S256x4_S4x1024_S256x1024_1_0_0_1_n_n none nb (shapeCast S4x1024 wn shapeCasts_S1x4x1024_S4x1024) (constant S256x1024 .f32 0x00000000#32)))
        (broadcastTo S256x1024 (shapeCast S1x1024 (shapeCast S1024 bs shapeCasts_S1x1024_S1024) shapeCasts_S1024_S1x1024) broadcasts_S1x1024_S256x1024)
      (ix2 p q) = gateTile xb hb nb wx wh wn bs p q := by
  rw [addf_apply, addf_apply, addf_apply, matmul_sq_apply, matmul_sq_apply, matmul_nb_apply, bias_bcast_apply]
  simp only [wsq_cast_apply, wnb_cast_apply]
  rfl

/-- Gate 0, as the body's first part computes it. -/
theorem pay6_apply (v0 v2 : FVec Ideal S256x1024 .bf16) (v4 : FVec Ideal S256x4 .bf16) (wx wh : FVec Ideal S1x1024x1024 .bf16)
    (wn : FVec Ideal S1x4x1024 .bf16) (bs : FVec Ideal S1x1024 .f32) (p : Fin 256) (q : Fin 1024) :
    k0_pay6 (F := Ideal) v0 v2 v4 wx wh wn bs (ix2 p q) = gateTile v0 v2 v4 wx wh wn bs p q := by
  refine (gate_sum_apply (k0_pay3 v0) (k0_pay4 v2) (k0_pay5 v4) wx wh wn bs p q).trans ?_
  rw [pay3_eq, pay4_eq, pay5_eq]

/-- Gate 1: its two square products are made in the first part, the rest in the second. -/
theorem pay9_apply (v0 v2 : FVec Ideal S256x1024 .bf16) (v4 : FVec Ideal S256x4 .bf16) (wx wh : FVec Ideal S1x1024x1024 .bf16)
    (wn : FVec Ideal S1x4x1024 .bf16) (bs : FVec Ideal S1x1024 .f32) (p : Fin 256) (q : Fin 1024) :
    k0_pay9 (F := Ideal) (k0_pay5 v4) (k0_pay7 v0 wx) (k0_pay8 v2 wh) wn bs (ix2 p q) = gateTile v0 v2 v4 wx wh wn bs p q := by
  refine (gate_sum_apply (k0_pay3 v0) (k0_pay4 v2) (k0_pay5 v4) wx wh wn bs p q).trans ?_
  rw [pay3_eq, pay4_eq, pay5_eq]

/-- Gate 2. -/
theorem pay10_apply (v0 v2 : FVec Ideal S256x1024 .bf16) (v4 : FVec Ideal S256x4 .bf16) (wx wh : FVec Ideal S1x1024x1024 .bf16)
    (wn : FVec Ideal S1x4x1024 .bf16) (bs : FVec Ideal S1x1024 .f32) (p : Fin 256) (q : Fin 1024) :
    k0_pay10 (F := Ideal) (k0_pay3 v0) (k0_pay4 v2) (k0_pay5 v4) wx wh wn bs (ix2 p q) = gateTile v0 v2 v4 wx wh wn bs p q := by
  refine (gate_sum_apply (k0_pay3 v0) (k0_pay4 v2) (k0_pay5 v4) wx wh wn bs p q).trans ?_
  rw [pay3_eq, pay4_eq, pay5_eq]

/-! ## The two stored values at an element -/

/-- The shape of the stored cell value: forget gate times old cell plus input gate times tanh of gate 3, gate 3
    being finished here from its two square products. -/
theorem pay1_shape (A : FVec Ideal S256x4 .bf16) (B : FVec Ideal S256x1024 .f32) (C D E G : FVec Ideal S256x1024 .f32)
    (H : FVec Ideal S1x4x1024 .bf16) (I : FVec Ideal S1x1024 .f32) (j : S256x1024.Idx) :
    k0_pay1 (F := Ideal) A B C D E G H I j = Ideal.logistic (D j) * B j + Ideal.logistic (C j) * Ideal.tanh ((addf (addf (addf E G)
        (matmul dot_S256x4_S4x1024_S256x1024_1_0_0_1_n_n none A (shapeCast S4x1024 H shapeCasts_S1x4x1024_S4x1024) (constant S256x1024 .f32 0x00000000#32)))
        (broadcastTo S256x1024 (shapeCast S1x1024 (shapeCast S1024 I shapeCasts_S1x1024_S1024) shapeCasts_S1024_S1x1024) broadcasts_S1x1024_S256x1024)) j) := rfl

/-- The new cell state at (p, q) of the tile, from the tile's activations, old cell and the four gates' weights. -/
def cellTile (v0 v2 : FVec Ideal S256x1024 .bf16) (v4 : FVec Ideal S256x4 .bf16) (v6 : FVec Ideal S256x1024 .f32)
    (a0 b0 : FVec Ideal S1x1024x1024 .bf16) (n0 : FVec Ideal S1x4x1024 .bf16) (s0 : FVec Ideal S1x1024 .f32)
    (a1 b1 : FVec Ideal S1x1024x1024 .bf16) (n1 : FVec Ideal S1x4x1024 .bf16) (s1 : FVec Ideal S1x1024 .f32)
    (a3 b3 : FVec Ideal S1x1024x1024 .bf16) (n3 : FVec Ideal S1x4x1024 .bf16) (s3 : FVec Ideal S1x1024 .f32)
    (p : Fin 256) (q : Fin 1024) : EReal :=
  Ideal.logistic (gateTile v0 v2 v4 a1 b1 n1 s1 p q) * v6 (ix2 p q)
    + Ideal.logistic (gateTile v0 v2 v4 a0 b0 n0 s0 p q) * Ideal.tanh (gateTile v0 v2 v4 a3 b3 n3 s3 p q)

/-- The value stored to the cell output, at (p, q). -/
theorem pay1_apply (v0 v2 : FVec Ideal S256x1024 .bf16) (v4 : FVec Ideal S256x4 .bf16) (v6 : FVec Ideal S256x1024 .f32)
    (a0 b0 : FVec Ideal S1x1024x1024 .bf16) (n0 : FVec Ideal S1x4x1024 .bf16) (s0 : FVec Ideal S1x1024 .f32)
    (a1 b1 : FVec Ideal S1x1024x1024 .bf16) (n1 : FVec Ideal S1x4x1024 .bf16) (s1 : FVec Ideal S1x1024 .f32)
    (a3 b3 : FVec Ideal S1x1024x1024 .bf16) (n3 : FVec Ideal S1x4x1024 .bf16) (s3 : FVec Ideal S1x1024 .f32)
    (p : Fin 256) (q : Fin 1024) :
    k0_pay1 (F := Ideal) (k0_pay5 v4) v6 (k0_pay6 v0 v2 v4 a0 b0 n0 s0) (k0_pay9 (k0_pay5 v4) (k0_pay7 v0 a1) (k0_pay8 v2 b1) n1 s1)
        (k0_pay11 (k0_pay3 v0) a3) (k0_pay12 (k0_pay4 v2) b3) n3 s3 (ix2 p q)
      = cellTile v0 v2 v4 v6 a0 b0 n0 s0 a1 b1 n1 s1 a3 b3 n3 s3 p q := by
  have e3 : (addf (addf (addf (k0_pay11 (k0_pay3 v0) a3) (k0_pay12 (k0_pay4 v2) b3))
        (matmul dot_S256x4_S4x1024_S256x1024_1_0_0_1_n_n none (k0_pay5 v4) (shapeCast S4x1024 n3 shapeCasts_S1x4x1024_S4x1024) (constant S256x1024 .f32 0x00000000#32)))
        (broadcastTo S256x1024 (shapeCast S1x1024 (shapeCast S1024 s3 shapeCasts_S1x1024_S1024) shapeCasts_S1024_S1x1024) broadcasts_S1x1024_S256x1024)) (ix2 p q)
      = gateTile v0 v2 v4 a3 b3 n3 s3 p q := by
    refine (gate_sum_apply (k0_pay3 v0) (k0_pay4 v2) (k0_pay5 v4) a3 b3 n3 s3 p q).trans ?_
    rw [pay3_eq, pay4_eq, pay5_eq]
  rw [pay1_shape, e3, pay9_apply, pay6_apply]
  rfl

/-- The value stored to the hidden output, at (p, q): output gate times tanh of the stored cell value. -/
theorem pay2_apply (v0 v2 : FVec Ideal S256x1024 .bf16) (v4 : FVec Ideal S256x4 .bf16) (v6 : FVec Ideal S256x1024 .f32)
    (a0 b0 : FVec Ideal S1x1024x1024 .bf16) (n0 : FVec Ideal S1x4x1024 .bf16) (s0 : FVec Ideal S1x1024 .f32)
    (a1 b1 : FVec Ideal S1x1024x1024 .bf16) (n1 : FVec Ideal S1x4x1024 .bf16) (s1 : FVec Ideal S1x1024 .f32)
    (a2 b2 : FVec Ideal S1x1024x1024 .bf16) (n2 : FVec Ideal S1x4x1024 .bf16) (s2 : FVec Ideal S1x1024 .f32)
    (a3 b3 : FVec Ideal S1x1024x1024 .bf16) (n3 : FVec Ideal S1x4x1024 .bf16) (s3 : FVec Ideal S1x1024 .f32)
    (p : Fin 256) (q : Fin 1024) :
    k0_pay2 (F := Ideal) (k0_pay5 v4) v6 (k0_pay6 v0 v2 v4 a0 b0 n0 s0) (k0_pay9 (k0_pay5 v4) (k0_pay7 v0 a1) (k0_pay8 v2 b1) n1 s1)
        (k0_pay10 (k0_pay3 v0) (k0_pay4 v2) (k0_pay5 v4) a2 b2 n2 s2)
        (k0_pay11 (k0_pay3 v0) a3) (k0_pay12 (k0_pay4 v2) b3) n3 s3 (ix2 p q)
      = Ideal.logistic (gateTile v0 v2 v4 a2 b2 n2 s2 p q)
          * Ideal.tanh (cellTile v0 v2 v4 v6 a0 b0 n0 s0 a1 b1 n1 s1 a3 b3 n3 s3 p q) := by
  rw [← pay1_apply, ← pay10_apply]
  rfl

end Cert.GatedCell.Ker

end
-- ==== Proof.TileValue.lean ====
/-
  What the body leaves in its two output tiles, as functions of the ten staged input tiles, element by element.

  The four weight stacks are staged whole (all four gates); the body loads gate g's slab through the rectangle at
  offset (g, 0, 0) of extent (1, ·, ·), so the slab at (0, k, q) is the stack at (g, k, q), and likewise bias row g.
  With that the tile's gate pre-activation is
      preTile g p q = Σ_k x(p,k)·wx(g,k,q) + Σ_k h(p,k)·wh(g,k,q) + Σ_k n(p,k)·wn(g,k,q) + b(g,q)
  over the STAGED (already transposed) weights, and each output tile is stored whole by one store.
-/
import proofs.«132061_j38792144618011_1_alg».proof.Proof.Payload

noncomputable section

namespace Cert.GatedCell.Ker

open Cert.KernelIdeal Cert.KernelIdeal.Gen Idealize.ShloMosaic Idealize.ShloMosaic.ValueIdx

/-- Gate `g`'s pre-activation at (p, q) of the tile, from the staged tiles (weights as staged: gate × in × out). -/
def preTile (x0 x1 : FVec Ideal S256x1024 .bf16) (x3 : FVec Ideal S256x4 .bf16) (x4 x5 : FVec Ideal S4x1024x1024 .bf16)
    (x6 : FVec Ideal S4x4x1024 .bf16) (x7 : FVec Ideal S4x1024 .f32) (g : Fin 4) (p : Fin 256) (q : Fin 1024) : EReal :=
  (∑ k : Fin 1024, x0 (ix2 p k) * x4 (ix3 g k q)) + (∑ k : Fin 1024, x1 (ix2 p k) * x5 (ix3 g k q))
    + (∑ k : Fin 4, x3 (ix2 p k) * x6 (ix3 g k q)) + x7 (ix2 g q)

/-- The new cell state at (p, q) of the tile. -/
def cellOfTiles (x0 x1 : FVec Ideal S256x1024 .bf16) (x2 : FVec Ideal S256x1024 .f32) (x3 : FVec Ideal S256x4 .bf16)
    (x4 x5 : FVec Ideal S4x1024x1024 .bf16) (x6 : FVec Ideal S4x4x1024 .bf16) (x7 : FVec Ideal S4x1024 .f32)
    (p : Fin 256) (q : Fin 1024) : EReal :=
  Ideal.logistic (preTile x0 x1 x3 x4 x5 x6 x7 1 p q) * x2 (ix2 p q)
    + Ideal.logistic (preTile x0 x1 x3 x4 x5 x6 x7 0 p q) * Ideal.tanh (preTile x0 x1 x3 x4 x5 x6 x7 3 p q)

/-- The new hidden state at (p, q) of the tile. -/
def hidOfTiles (x0 x1 : FVec Ideal S256x1024 .bf16) (x2 : FVec Ideal S256x1024 .f32) (x3 : FVec Ideal S256x4 .bf16)
    (x4 x5 : FVec Ideal S4x1024x1024 .bf16) (x6 : FVec Ideal S4x4x1024 .bf16) (x7 : FVec Ideal S4x1024 .f32)
    (p : Fin 256) (q : Fin 1024) : EReal :=
  Ideal.logistic (preTile x0 x1 x3 x4 x5 x6 x7 2 p q) * Ideal.tanh (cellOfTiles x0 x1 x2 x3 x4 x5 x6 x7 p q)

theorem zeros2 : (![0, 0] : Fin 2 → Nat) = fun _ => 0 := funext fun a => by fin_cases a <;> rfl

variable (x0 x1 : Vec Ideal S256x1024 .bf16) (x2 : Vec Ideal S256x1024 .f32) (x3 : Vec Ideal S256x4 .bf16)
  (x4 x5 : Vec Ideal S4x1024x1024 .bf16) (x6 : Vec Ideal S4x4x1024 .bf16) (x7 : Vec Ideal S4x1024 .f32)

/-- Gate 0's slabs are the stacks at gate 0. -/
theorem gate0_slabs (p : Fin 256) (q : Fin 1024) :
    gateTile x0 x1 x3 (View.ld x4 r0_2) (View.ld x5 r0_2) (View.ld x6 r0_3) (View.ld x7 r0_4) p q
      = preTile x0 x1 x3 x4 x5 x6 x7 0 p q := by
  have ea : ∀ k : Fin 1024, View.ld x4 r0_2 (ix3 0 k q) = x4 (ix3 0 k q) := fun k => congrArg x4 (funext fun a => Fin.ext (by
    match a with | ⟨0, _⟩ => rfl | ⟨1, _⟩ => show 0 + 1 * k.val = k.val; omega | ⟨2, _⟩ => show 0 + 1 * q.val = q.val; omega))
  have eb : ∀ k : Fin 1024, View.ld x5 r0_2 (ix3 0 k q) = x5 (ix3 0 k q) := fun k => congrArg x5 (funext fun a => Fin.ext (by
    match a with | ⟨0, _⟩ => rfl | ⟨1, _⟩ => show 0 + 1 * k.val = k.val; omega | ⟨2, _⟩ => show 0 + 1 * q.val = q.val; omega))
  have en : ∀ k : Fin 4, View.ld x6 r0_3 (ix3 0 k q) = x6 (ix3 0 k q) := fun k => congrArg x6 (funext fun a => Fin.ext (by
    match a with | ⟨0, _⟩ => rfl | ⟨1, _⟩ => show 0 + 1 * k.val = k.val; omega | ⟨2, _⟩ => show 0 + 1 * q.val = q.val; omega))
  have es : View.ld x7 r0_4 (ix2 0 q) = x7 (ix2 0 q) := congrArg x7 (funext fun a => Fin.ext (by
    match a with | ⟨0, _⟩ => rfl | ⟨1, _⟩ => show 0 + 1 * q.val = q.val; omega))
  unfold gateTile preTile
  simp only [ea, eb, en, es]

/-- Gate 1's slabs are the stacks at gate 1. -/
theorem gate1_slabs (p : Fin 256) (q : Fin 1024) :
    gateTile x0 x1 x3 (View.ld x4 r0_5) (View.ld x5 r0_5) (View.ld x6 r0_6) (View.ld x7 r0_7) p q
      = preTile x0 x1 x3 x4 x5 x6 x7 1 p q := by
  have ea : ∀ k : Fin 1024, View.ld x4 r0_5 (ix3 0 k q) = x4 (ix3 1 k q) := fun k => congrArg x4 (funext fun a => Fin.ext (by
    match a with | ⟨0, _⟩ => rfl | ⟨1, _⟩ => show 0 + 1 * k.val = k.val; omega | ⟨2, _⟩ => show 0 + 1 * q.val = q.val; omega))
  have eb : ∀ k : Fin 1024, View.ld x5 r0_5 (ix3 0 k q) = x5 (ix3 1 k q) := fun k => congrArg x5 (funext fun a => Fin.ext (by
    match a with | ⟨0, _⟩ => rfl | ⟨1, _⟩ => show 0 + 1 * k.val = k.val; omega | ⟨2, _⟩ => show 0 + 1 * q.val = q.val; omega))
  have en : ∀ k : Fin 4, View.ld x6 r0_6 (ix3 0 k q) = x6 (ix3 1 k q) := fun k => congrArg x6 (funext fun a => Fin.ext (by
    match a with | ⟨0, _⟩ => rfl | ⟨1, _⟩ => show 0 + 1 * k.val = k.val; omega | ⟨2, _⟩ => show 0 + 1 * q.val = q.val; omega))
  have es : View.ld x7 r0_7 (ix2 0 q) = x7 (ix2 1 q) := congrArg x7 (funext fun a => Fin.ext (by
    match a with | ⟨0, _⟩ => rfl | ⟨1, _⟩ => show 0 + 1 * q.val = q.val; omega))
  unfold gateTile preTile
  simp only [ea, eb, en, es]

/-- Gate 2's slabs are the stacks at gate 2. -/
theorem gate2_slabs (p : Fin 256) (q : Fin 1024) :
    gateTile x0 x1 x3 (View.ld x4 r0_8) (View.ld x5 r0_8) (View.ld x6 r0_9) (View.ld x7 r0_10) p q
      = preTile x0 x1 x3 x4 x5 x6 x7 2 p q := by
  have ea : ∀ k : Fin 1024, View.ld x4 r0_8 (ix3 0 k q) = x4 (ix3 2 k q) := fun k => congrArg x4 (funext fun a => Fin.ext (by
    match a with | ⟨0, _⟩ => rfl | ⟨1, _⟩ => show 0 + 1 * k.val = k.val; omega | ⟨2, _⟩ => show 0 + 1 * q.val = q.val; omega))
  have eb : ∀ k : Fin 1024, View.ld x5 r0_8 (ix3 0 k q) = x5 (ix3 2 k q) := fun k => congrArg x5 (funext fun a => Fin.ext (by
    match a with | ⟨0, _⟩ => rfl | ⟨1, _⟩ => show 0 + 1 * k.val = k.val; omega | ⟨2, _⟩ => show 0 + 1 * q.val = q.val; omega))
  have en : ∀ k : Fin 4, View.ld x6 r0_9 (ix3 0 k q) = x6 (ix3 2 k q) := fun k => congrArg x6 (funext fun a => Fin.ext (by
    match a with | ⟨0, _⟩ => rfl | ⟨1, _⟩ => show 0 + 1 * k.val = k.val; omega | ⟨2, _⟩ => show 0 + 1 * q.val = q.val; omega))
  have es : View.ld x7 r0_10 (ix2 0 q) = x7 (ix2 2 q) := congrArg x7 (funext fun a => Fin.ext (by
    match a with | ⟨0, _⟩ => rfl | ⟨1, _⟩ => show 0 + 1 * q.val = q.val; omega))
  unfold gateTile preTile
  simp only [ea, eb, en, es]

/-- Gate 3's slabs are the stacks at gate 3. -/
theorem gate3_slabs (p : Fin 256) (q : Fin 1024) :
    gateTile x0 x1 x3 (View.ld x4 r0_11) (View.ld x5 r0_11) (View.ld x6 r0_12) (View.ld x7 r0_13) p q
      = preTile x0 x1 x3 x4 x5 x6 x7 3 p q := by
  have ea : ∀ k : Fin 1024, View.ld x4 r0_11 (ix3 0 k q) = x4 (ix3 3 k q) := fun k => congrArg x4 (funext fun a => Fin.ext (by
    match a with | ⟨0, _⟩ => rfl | ⟨1, _⟩ => show 0 + 1 * k.val = k.val; omega | ⟨2, _⟩ => show 0 + 1 * q.val = q.val; omega))
  have eb : ∀ k : Fin 1024, View.ld x5 r0_11 (ix3 0 k q) = x5 (ix3 3 k q) := fun k => congrArg x5 (funext fun a => Fin.ext (by
    match a with | ⟨0, _⟩ => rfl | ⟨1, _⟩ => show 0 + 1 * k.val = k.val; omega | ⟨2, _⟩ => show 0 + 1 * q.val = q.val; omega))
  have en : ∀ k : Fin 4, View.ld x6 r0_12 (ix3 0 k q) = x6 (ix3 3 k q) := fun k => congrArg x6 (funext fun a => Fin.ext (by
    match a with | ⟨0, _⟩ => rfl | ⟨1, _⟩ => show 0 + 1 * k.val = k.val; omega | ⟨2, _⟩ => show 0 + 1 * q.val = q.val; omega))
  have es : View.ld x7 r0_13 (ix2 0 q) = x7 (ix2 3 q) := congrArg x7 (funext fun a => Fin.ext (by
    match a with | ⟨0, _⟩ => rfl | ⟨1, _⟩ => show 0 + 1 * q.val = q.val; omega))
  unfold gateTile preTile
  simp only [ea, eb, en, es]

/-- The cell output tile after the body, at (p, q). -/
theorem cell_tile_apply (p : Fin 256) (q : Fin 1024) :
    out0_9 (F := Ideal) x0 x1 x2 x3 x4 x5 x6 x7 (ix2 p q) = cellOfTiles x0 x1 x2 x3 x4 x5 x6 x7 p q := by
  unfold out0_9
  rw [View.canon_unit_zero zeros2]
  simp only [View.ld_unit_zero (S := S256x1024) zeros2, View.ld_unit_zero (S := S256x4) zeros2]
  rw [pay1_apply]
  unfold cellTile cellOfTiles
  rw [gate0_slabs, gate1_slabs, gate3_slabs]

/-- The hidden output tile after the body, at (p, q). -/
theorem hid_tile_apply (p : Fin 256) (q : Fin 1024) :
    out0_8 (F := Ideal) x0 x1 x2 x3 x4 x5 x6 x7 (ix2 p q) = hidOfTiles x0 x1 x2 x3 x4 x5 x6 x7 p q := by
  unfold out0_8
  rw [View.canon_unit_zero zeros2]
  simp only [View.ld_unit_zero (S := S256x1024) zeros2, View.ld_unit_zero (S := S256x4) zeros2]
  rw [pay2_apply]
  unfold cellTile hidOfTiles cellOfTiles
  rw [gate0_slabs, gate1_slabs, gate2_slabs, gate3_slabs]

end Cert.GatedCell.Ker

end
-- ==== Proof.Arrays.lean ====
/-
  From tiles to arrays: what the kernel's two result arrays hold after the run.

  Before the region the host casts x, hidden and neighbors to the matmul input format (the identity on the extended
  reals) and transposes each weight stack's last two axes (then casts it), so the staged weight stacks hold
  W[g, in, out] = argument W[g, out, in].  The grid has 32 points; point t stages rows 256·t … 256·t + 255 of the
  four batch-indexed arrays and the whole of the weight and bias stacks, and writes back rows 256·t … of the two
  results.  Hence the tile's gate pre-activation at (p, q) is the argument-level `pre` at batch row 256·t + p, what
  point t writes back is block t of the whole-array functions `cellNew` / `hidNew`, and the 32 row blocks cover
  the arrays.
-/
import proofs.«132061_j38792144618011_1_alg».proof.Proof.Gen.KernelIdeal.Value
import proofs.«132061_j38792144618011_1_alg».proof.Proof.TileValue
import Idealize.ShloMosaic.Lib.StableHlo.Run
import Idealize.ShloMosaic.Lib.ValueLayout
import Idealize.ShloMosaic.Lib.Pipeline.Value

noncomputable section

namespace Cert.GatedCell.Arr

open Cert.KernelIdeal Cert.KernelIdeal.Gen Idealize.ShloMosaic Idealize.ShloMosaic.TcCoe Idealize.SL.Sem
open Idealize.ShloMosaic.StableHlo Idealize.ShloMosaic.ValueIdx Cert.GatedCell Cert.GatedCell.Ker
open Idealize.ShloMosaic.Pipeline (Dat)

variable (m : (ℓ : Loc nD τ sig) → Buf (Elt Ideal) ℓ) (ρ : Dev nD → PrngReg)

/-! ## The argument arrays as launched -/

abbrev aX (c : Dev nD) : Act.Idx → EReal := m ((c : Thread nD τ).loc main_arg0)
abbrev aH (c : Dev nD) : Act.Idx → EReal := m ((c : Thread nD τ).loc main_arg1)
abbrev aC (c : Dev nD) : Act.Idx → EReal := m ((c : Thread nD τ).loc main_arg2)
abbrev aN (c : Dev nD) : Nbr.Idx → EReal := m ((c : Thread nD τ).loc main_arg3)
abbrev aWx (c : Dev nD) : Wsq.Idx → EReal := m ((c : Thread nD τ).loc main_arg4)
abbrev aWh (c : Dev nD) : Wsq.Idx → EReal := m ((c : Thread nD τ).loc main_arg5)
abbrev aWn (c : Dev nD) : Wnb.Idx → EReal := m ((c : Thread nD τ).loc main_arg6)
abbrev aB (c : Dev nD) : Bia.Idx → EReal := m ((c : Thread nD τ).loc main_arg7)

/-! ## The staged arrays as the region finds them -/

/-- The cast of x is x. -/
theorem entry_x (c : Dev nD) : (V m c main_v0 : Act.Idx → EReal) = aX m c := by
  dsimp only [Gen.V, Gen.hostOps0]; after_results; rfl
/-- The cast of hidden is hidden. -/
theorem entry_h (c : Dev nD) : (V m c main_v1 : Act.Idx → EReal) = aH m c := by
  dsimp only [Gen.V, Gen.hostOps0]; after_results; rfl
/-- The cast of neighbors is neighbors. -/
theorem entry_n (c : Dev nD) : (V m c main_v2 : Nbr.Idx → EReal) = aN m c := by
  dsimp only [Gen.V, Gen.hostOps0]; after_results; rfl
/-- The staged input weights: Wx with its last two axes swapped. -/
theorem entry_wx (c : Dev nD) : (V m c main_v4 : Wsq.Idx → EReal)
    = transpose S4x1024x1024 [0, 2, 1] (aWx m c) transposes_S4x1024x1024_S4x1024x1024_0_2_1 := by
  dsimp only [Gen.V, Gen.hostOps0]; after_results; rfl
/-- The staged hidden weights: Wh with its last two axes swapped. -/
theorem entry_wh (c : Dev nD) : (V m c main_v6 : Wsq.Idx → EReal)
    = transpose S4x1024x1024 [0, 2, 1] (aWh m c) transposes_S4x1024x1024_S4x1024x1024_0_2_1 := by
  dsimp only [Gen.V, Gen.hostOps0]; after_results; rfl
/-- The staged neighbour weights: Wn with its last two axes swapped. -/
theorem entry_wn (c : Dev nD) : (V m c main_v8 : S4x4x1024.Idx → EReal)
    = transpose S4x4x1024 [0, 2, 1] (aWn m c) transposes_S4x1024x4_S4x4x1024_0_2_1 := by
  dsimp only [Gen.V, Gen.hostOps0]; after_results; rfl

/-! ## The windows' block indices over the grid -/

theorem idx_w0 : ∀ t : Fin cfg0.N, win0_0.index t (0 : Fin 2) = t.val ∧ win0_0.index t (1 : Fin 2) = 0 :=
  (by decide +kernel : ∀ t : Fin grid0.N, _)
theorem idx_w1 : ∀ t : Fin cfg0.N, win0_1.index t (0 : Fin 2) = t.val ∧ win0_1.index t (1 : Fin 2) = 0 :=
  (by decide +kernel : ∀ t : Fin grid0.N, _)
theorem idx_w2 : ∀ t : Fin cfg0.N, win0_2.index t (0 : Fin 2) = t.val ∧ win0_2.index t (1 : Fin 2) = 0 :=
  (by decide +kernel : ∀ t : Fin grid0.N, _)
theorem idx_w3 : ∀ t : Fin cfg0.N, win0_3.index t (0 : Fin 2) = t.val ∧ win0_3.index t (1 : Fin 2) = 0 :=
  (by decide +kernel : ∀ t : Fin grid0.N, _)
theorem idx_w4 : ∀ t : Fin cfg0.N, win0_4.index t (0 : Fin 3) = 0 ∧ win0_4.index t (1 : Fin 3) = 0 ∧ win0_4.index t (2 : Fin 3) = 0 :=
  (by decide +kernel : ∀ t : Fin grid0.N, _)
theorem idx_w5 : ∀ t : Fin cfg0.N, win0_5.index t (0 : Fin 3) = 0 ∧ win0_5.index t (1 : Fin 3) = 0 ∧ win0_5.index t (2 : Fin 3) = 0 :=
  (by decide +kernel : ∀ t : Fin grid0.N, _)
theorem idx_w6 : ∀ t : Fin cfg0.N, win0_6.index t (0 : Fin 3) = 0 ∧ win0_6.index t (1 : Fin 3) = 0 ∧ win0_6.index t (2 : Fin 3) = 0 :=
  (by decide +kernel : ∀ t : Fin grid0.N, _)
theorem idx_w7 : ∀ t : Fin cfg0.N, win0_7.index t (0 : Fin 2) = 0 ∧ win0_7.index t (1 : Fin 2) = 0 :=
  (by decide +kernel : ∀ t : Fin grid0.N, _)
theorem idx_w8 : ∀ t : Fin cfg0.N, win0_8.index t (0 : Fin 2) = t.val ∧ win0_8.index t (1 : Fin 2) = 0 :=
  (by decide +kernel : ∀ t : Fin grid0.N, _)
theorem idx_w9 : ∀ t : Fin cfg0.N, win0_9.index t (0 : Fin 2) = t.val ∧ win0_9.index t (1 : Fin 2) = 0 :=
  (by decide +kernel : ∀ t : Fin grid0.N, _)

/-- Row `p` of tile `t` is batch row `256·t + p`. -/
def row (t : Fin cfg0.N) (p : Fin 256) : Fin 8192 :=
  ⟨t.val * 256 + p.val, by have h : t.val < grid0.N := t.isLt; rw [N_0] at h; omega⟩

/-! ## The staged tiles at a point, read at an element -/

abbrev xT (c : Dev nD) (t : Fin cfg0.N) : Vec Ideal S256x1024 .bf16 := iblk m c 0 t
abbrev hT (c : Dev nD) (t : Fin cfg0.N) : Vec Ideal S256x1024 .bf16 := iblk m c 1 t
abbrev cT (c : Dev nD) (t : Fin cfg0.N) : Vec Ideal S256x1024 .f32 := iblk m c 2 t
abbrev nT (c : Dev nD) (t : Fin cfg0.N) : Vec Ideal S256x4 .bf16 := iblk m c 3 t
abbrev wxT (c : Dev nD) (t : Fin cfg0.N) : Vec Ideal S4x1024x1024 .bf16 := iblk m c 4 t
abbrev whT (c : Dev nD) (t : Fin cfg0.N) : Vec Ideal S4x1024x1024 .bf16 := iblk m c 5 t
abbrev wnT (c : Dev nD) (t : Fin cfg0.N) : Vec Ideal S4x4x1024 .bf16 := iblk m c 6 t
abbrev bT (c : Dev nD) (t : Fin cfg0.N) : Vec Ideal S4x1024 .f32 := iblk m c 7 t

theorem x_tile (c : Dev nD) (t : Fin cfg0.N) (p : Fin 256) (k : Fin 1024) :
    xT m c t (ix2 p k) = aX m c (ix2 (row t p) k) := by
  obtain ⟨e0, e1⟩ := idx_w0 t
  show (V m c main_v0 : Act.Idx → EReal) (((cfg0.win 0).blk t).view.emb (ix2 p k)) = _
  rw [entry_x]
  refine congrArg (aX m c) (funext fun a => Fin.ext ?_)
  match a with
  | ⟨0, _⟩ => show win0_0.index t (0 : Fin 2) * 256 + 1 * p.val = t.val * 256 + p.val; omega
  | ⟨1, _⟩ => show win0_0.index t (1 : Fin 2) * 1024 + 1 * k.val = k.val; omega

theorem h_tile (c : Dev nD) (t : Fin cfg0.N) (p : Fin 256) (k : Fin 1024) :
    hT m c t (ix2 p k) = aH m c (ix2 (row t p) k) := by
  obtain ⟨e0, e1⟩ := idx_w1 t
  show (V m c main_v1 : Act.Idx → EReal) (((cfg0.win 1).blk t).view.emb (ix2 p k)) = _
  rw [entry_h]
  refine congrArg (aH m c) (funext fun a => Fin.ext ?_)
  match a with
  | ⟨0, _⟩ => show win0_1.index t (0 : Fin 2) * 256 + 1 * p.val = t.val * 256 + p.val; omega
  | ⟨1, _⟩ => show win0_1.index t (1 : Fin 2) * 1024 + 1 * k.val = k.val; omega

theorem c_tile (c : Dev nD) (t : Fin cfg0.N) (p : Fin 256) (q : Fin 1024) :
    cT m c t (ix2 p q) = aC m c (ix2 (row t p) q) := by
  obtain ⟨e0, e1⟩ := idx_w2 t
  show (V m c main_arg2 : Act.Idx → EReal) (((cfg0.win 2).blk t).view.emb (ix2 p q)) = _
  rw [V_main_arg2]
  refine congrArg (aC m c) (funext fun a => Fin.ext ?_)
  match a with
  | ⟨0, _⟩ => show win0_2.index t (0 : Fin 2) * 256 + 1 * p.val = t.val * 256 + p.val; omega
  | ⟨1, _⟩ => show win0_2.index t (1 : Fin 2) * 1024 + 1 * q.val = q.val; omega

theorem n_tile (c : Dev nD) (t : Fin cfg0.N) (p : Fin 256) (k : Fin 4) :
    nT m c t (ix2 p k) = aN m c (ix2 (row t p) k) := by
  obtain ⟨e0, e1⟩ := idx_w3 t
  show (V m c main_v2 : Nbr.Idx → EReal) (((cfg0.win 3).blk t).view.emb (ix2 p k)) = _
  rw [entry_n]
  refine congrArg (aN m c) (funext fun a => Fin.ext ?_)
  match a with
  | ⟨0, _⟩ => show win0_3.index t (0 : Fin 2) * 256 + 1 * p.val = t.val * 256 + p.val; omega
  | ⟨1, _⟩ => show win0_3.index t (1 : Fin 2) * 4 + 1 * k.val = k.val; omega

theorem wx_tile (c : Dev nD) (t : Fin cfg0.N) (g : Fin 4) (k q : Fin 1024) :
    wxT m c t (ix3 g k q) = aWx m c (ix3 g q k) := by
  obtain ⟨e0, e1, e2⟩ := idx_w4 t
  show (V m c main_v4 : Wsq.Idx → EReal) (((cfg0.win 4).blk t).view.emb (ix3 g k q)) = _
  rw [entry_wx]
  refine Eq.trans (congrArg _ (funext fun a => Fin.ext ?_)) (transpose_ix3_021_apply (aWx m c) _ g k q)
  match a with
  | ⟨0, _⟩ => show win0_4.index t (0 : Fin 3) * 4 + 1 * g.val = g.val; omega
  | ⟨1, _⟩ => show win0_4.index t (1 : Fin 3) * 1024 + 1 * k.val = k.val; omega
  | ⟨2, _⟩ => show win0_4.index t (2 : Fin 3) * 1024 + 1 * q.val = q.val; omega

theorem wh_tile (c : Dev nD) (t : Fin cfg0.N) (g : Fin 4) (k q : Fin 1024) :
    whT m c t (ix3 g k q) = aWh m c (ix3 g q k) := by
  obtain ⟨e0, e1, e2⟩ := idx_w5 t
  show (V m c main_v6 : Wsq.Idx → EReal) (((cfg0.win 5).blk t).view.emb (ix3 g k q)) = _
  rw [entry_wh]
  refine Eq.trans (congrArg _ (funext fun a => Fin.ext ?_)) (transpose_ix3_021_apply (aWh m c) _ g k q)
  match a with
  | ⟨0, _⟩ => show win0_5.index t (0 : Fin 3) * 4 + 1 * g.val = g.val; omega
  | ⟨1, _⟩ => show win0_5.index t (1 : Fin 3) * 1024 + 1 * k.val = k.val; omega
  | ⟨2, _⟩ => show win0_5.index t (2 : Fin 3) * 1024 + 1 * q.val = q.val; omega

theorem wn_tile (c : Dev nD) (t : Fin cfg0.N) (g : Fin 4) (k : Fin 4) (q : Fin 1024) :
    wnT m c t (ix3 g k q) = aWn m c (ix3 g q k) := by
  obtain ⟨e0, e1, e2⟩ := idx_w6 t
  show (V m c main_v8 : S4x4x1024.Idx → EReal) (((cfg0.win 6).blk t).view.emb (ix3 g k q)) = _
  rw [entry_wn]
  refine Eq.trans (congrArg _ (funext fun a => Fin.ext ?_)) (transpose_ix3_021_apply (aWn m c) _ g k q)
  match a with
  | ⟨0, _⟩ => show win0_6.index t (0 : Fin 3) * 4 + 1 * g.val = g.val; omega
  | ⟨1, _⟩ => show win0_6.index t (1 : Fin 3) * 4 + 1 * k.val = k.val; omega
  | ⟨2, _⟩ => show win0_6.index t (2 : Fin 3) * 1024 + 1 * q.val = q.val; omega

theorem b_tile (c : Dev nD) (t : Fin cfg0.N) (g : Fin 4) (q : Fin 1024) :
    bT m c t (ix2 g q) = aB m c (ix2 g q) := by
  obtain ⟨e0, e1⟩ := idx_w7 t
  show (V m c main_arg7 : Bia.Idx → EReal) (((cfg0.win 7).blk t).view.emb (ix2 g q)) = _
  rw [V_main_arg7]
  refine congrArg (aB m c) (funext fun a => Fin.ext ?_)
  match a with
  | ⟨0, _⟩ => show win0_7.index t (0 : Fin 2) * 4 + 1 * g.val = g.val; omega
  | ⟨1, _⟩ => show win0_7.index t (1 : Fin 2) * 1024 + 1 * q.val = q.val; omega

/-- The tile's gate pre-activation is the arrays' at the tile's batch row: the staged weights at (g, k, q) are the
    arguments' at (g, q, k). -/
theorem pre_of_tiles (c : Dev nD) (t : Fin cfg0.N) (g : Fin 4) (p : Fin 256) (q : Fin 1024) :
    preTile (xT m c t) (hT m c t) (nT m c t) (wxT m c t) (whT m c t) (wnT m c t) (bT m c t) g p q
      = pre (aX m c) (aH m c) (aN m c) (aWx m c) (aWh m c) (aWn m c) (aB m c) g (row t p) q := by
  unfold preTile pre
  simp only [x_tile, h_tile, n_tile, wx_tile, wh_tile, wn_tile, b_tile]

/-! ## What each point writes back -/

/-- Point `t` writes back block `t` of the new cell state. -/
theorem cell_flushed (c : Dev nD) (t : Fin cfg0.N) :
    (dats m 0 c).flushed 9 t = ((cfg0.win 9).blk t).view.read (Elt Ideal)
      (cellNew (aX m c) (aH m c) (aC m c) (aN m c) (aWx m c) (aWh m c) (aWn m c) (aB m c)) := by
  rw [Cert.KernelIdeal.Value.flushed9]
  funext j
  obtain ⟨p, q, rfl⟩ : ∃ (p : Fin 256) (q : Fin 1024), j = ix2 p q := ⟨j 0, j 1, eq_ix2 j⟩
  obtain ⟨e0, e1⟩ := idx_w9 t
  have ei : ((cfg0.win 9).blk t).view.emb (ix2 p q) = ix2 (row t p) q := funext fun a => Fin.ext (by
    match a with
    | ⟨0, _⟩ => show win0_9.index t (0 : Fin 2) * 256 + 1 * p.val = t.val * 256 + p.val; omega
    | ⟨1, _⟩ => show win0_9.index t (1 : Fin 2) * 1024 + 1 * q.val = q.val; omega)
  show out0_9 (F := Ideal) (xT m c t) (hT m c t) (cT m c t) (nT m c t) (wxT m c t) (whT m c t) (wnT m c t) (bT m c t) (ix2 p q)
    = cellNew (aX m c) (aH m c) (aC m c) (aN m c) (aWx m c) (aWh m c) (aWn m c) (aB m c) (((cfg0.win 9).blk t).view.emb (ix2 p q))
  rw [cell_tile_apply, ei]
  unfold cellOfTiles
  rw [pre_of_tiles, pre_of_tiles, pre_of_tiles, c_tile]
  rfl

/-- Point `t` writes back block `t` of the new hidden state. -/
theorem hid_flushed (c : Dev nD) (t : Fin cfg0.N) :
    (dats m 0 c).flushed 8 t = ((cfg0.win 8).blk t).view.read (Elt Ideal)
      (hidNew (aX m c) (aH m c) (aC m c) (aN m c) (aWx m c) (aWh m c) (aWn m c) (aB m c)) := by
  rw [Cert.KernelIdeal.Value.flushed8]
  funext j
  obtain ⟨p, q, rfl⟩ : ∃ (p : Fin 256) (q : Fin 1024), j = ix2 p q := ⟨j 0, j 1, eq_ix2 j⟩
  obtain ⟨e0, e1⟩ := idx_w8 t
  have ei : ((cfg0.win 8).blk t).view.emb (ix2 p q) = ix2 (row t p) q := funext fun a => Fin.ext (by
    match a with
    | ⟨0, _⟩ => show win0_8.index t (0 : Fin 2) * 256 + 1 * p.val = t.val * 256 + p.val; omega
    | ⟨1, _⟩ => show win0_8.index t (1 : Fin 2) * 1024 + 1 * q.val = q.val; omega)
  show out0_8 (F := Ideal) (xT m c t) (hT m c t) (cT m c t) (nT m c t) (wxT m c t) (whT m c t) (wnT m c t) (bT m c t) (ix2 p q)
    = hidNew (aX m c) (aH m c) (aC m c) (aN m c) (aWx m c) (aWh m c) (aWn m c) (aB m c) (((cfg0.win 8).blk t).view.emb (ix2 p q))
  rw [hid_tile_apply, ei]
  unfold hidOfTiles cellOfTiles
  rw [pre_of_tiles, pre_of_tiles, pre_of_tiles, pre_of_tiles, c_tile]
  rfl

/-! ## The row blocks cover the arrays -/

/-- An index is in point `t`'s block of the hidden result iff each coordinate is in the block's range. -/
theorem mem_blk8 (t : Fin cfg0.N) (i : S8192x1024.Idx) :
    i ∈ ((cfg0.win 8).blk t).view.set ↔ ∀ a : Fin 2, win0_8.index t a * S256x1024.size a ≤ (i a).val ∧ (i a).val < win0_8.index t a * S256x1024.size a + S256x1024.size a := by
  show i ∈ ((View.whole main_v9_0).slice (win0_8.rect t)).set ↔ _
  rw [View.set_slice_whole, Rect.mem_set_unit]
  exact Iff.rfl

/-- The same for the cell result. -/
theorem mem_blk9 (t : Fin cfg0.N) (i : S8192x1024.Idx) :
    i ∈ ((cfg0.win 9).blk t).view.set ↔ ∀ a : Fin 2, win0_9.index t a * S256x1024.size a ≤ (i a).val ∧ (i a).val < win0_9.index t a * S256x1024.size a + S256x1024.size a := by
  show i ∈ ((View.whole main_v9_1).slice (win0_9.rect t)).set ↔ _
  rw [View.set_slice_whole, Rect.mem_set_unit]
  exact Iff.rfl

/-- Batch row `r` lies in the block of point `r / 256`. -/
theorem cover8 (i : S8192x1024.Idx) : ∃ t : Fin cfg0.N, (cfg0.win 8).flush t = true ∧ i ∈ ((cfg0.win 8).blk t).view.set := by
  have hi0 : (i 0).val < 8192 := (i 0).isLt
  have hi1 : (i 1).val < 1024 := (i 1).isLt
  have hlt : (i 0).val / 256 < cfg0.N := by rw [show cfg0.N = 32 from N_0]; omega
  obtain ⟨e0, e1⟩ := idx_w8 ⟨(i 0).val / 256, hlt⟩
  have e0' : win0_8.index ⟨(i 0).val / 256, hlt⟩ (0 : Fin 2) = (i 0).val / 256 := e0
  refine ⟨⟨(i 0).val / 256, hlt⟩, flush0_8 _, ?_⟩
  rw [mem_blk8]
  intro a
  match a with
  | ⟨0, _⟩ =>
    show win0_8.index ⟨(i 0).val / 256, hlt⟩ (0 : Fin 2) * 256 ≤ (i 0).val ∧ (i 0).val < win0_8.index ⟨(i 0).val / 256, hlt⟩ (0 : Fin 2) * 256 + 256
    omega
  | ⟨1, _⟩ =>
    show win0_8.index ⟨(i 0).val / 256, hlt⟩ (1 : Fin 2) * 1024 ≤ (i 1).val ∧ (i 1).val < win0_8.index ⟨(i 0).val / 256, hlt⟩ (1 : Fin 2) * 1024 + 1024
    omega

theorem cover9 (i : S8192x1024.Idx) : ∃ t : Fin cfg0.N, (cfg0.win 9).flush t = true ∧ i ∈ ((cfg0.win 9).blk t).view.set := by
  have hi0 : (i 0).val < 8192 := (i 0).isLt
  have hi1 : (i 1).val < 1024 := (i 1).isLt
  have hlt : (i 0).val / 256 < cfg0.N := by rw [show cfg0.N = 32 from N_0]; omega
  obtain ⟨e0, e1⟩ := idx_w9 ⟨(i 0).val / 256, hlt⟩
  have e0' : win0_9.index ⟨(i 0).val / 256, hlt⟩ (0 : Fin 2) = (i 0).val / 256 := e0
  refine ⟨⟨(i 0).val / 256, hlt⟩, flush0_9 _, ?_⟩
  rw [mem_blk9]
  intro a
  match a with
  | ⟨0, _⟩ =>
    show win0_9.index ⟨(i 0).val / 256, hlt⟩ (0 : Fin 2) * 256 ≤ (i 0).val ∧ (i 0).val < win0_9.index ⟨(i 0).val / 256, hlt⟩ (0 : Fin 2) * 256 + 256
    omega
  | ⟨1, _⟩ =>
    show win0_9.index ⟨(i 0).val / 256, hlt⟩ (1 : Fin 2) * 1024 ≤ (i 1).val ∧ (i 1).val < win0_9.index ⟨(i 0).val / 256, hlt⟩ (1 : Fin 2) * 1024 + 1024
    omega

/-! ## The arrays after the run -/

/-- The hidden result array ends holding the new hidden state. -/
theorem hid_final (c : Dev nD) : (dats m 0 c).arrAt 8 cfg0.N
    = hidNew (aX m c) (aH m c) (aC m c) (aN m c) (aWx m c) (aWh m c) (aWn m c) (aB m c) :=
  (dats m 0 c).arrAt_eq_of_cover 8 (hidNew (aX m c) (aH m c) (aC m c) (aN m c) (aWx m c) (aWh m c) (aWn m c) (aB m c))
    (fun t _ => hid_flushed m c t) cover8

/-- The cell result array ends holding the new cell state. -/
theorem cell_final (c : Dev nD) : (dats m 0 c).arrAt 9 cfg0.N
    = cellNew (aX m c) (aH m c) (aC m c) (aN m c) (aWx m c) (aWh m c) (aWn m c) (aB m c) :=
  (dats m 0 c).arrAt_eq_of_cover 9 (cellNew (aX m c) (aH m c) (aC m c) (aN m c) (aWx m c) (aWh m c) (aWn m c) (aB m c))
    (fun t _ => cell_flushed m c t) cover9

/-- The kernel's run, read: the two results at the gated-cell functions of the arguments, the arguments unchanged. -/
theorem run : θ_run defs (onTc (τ := τ) (main (F := Ideal))) ⟨m, fun _ => 0, ρ⟩ fun r => ∀ c : Dev nD,
      r.2.mem ((c : Thread nD τ).loc main_v9_0) = hidNew (aX m c) (aH m c) (aC m c) (aN m c) (aWx m c) (aWh m c) (aWn m c) (aB m c)
      ∧ r.2.mem ((c : Thread nD τ).loc main_v9_1) = cellNew (aX m c) (aH m c) (aC m c) (aN m c) (aWx m c) (aWh m c) (aWn m c) (aB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (hid_final m c), (h c).2.1.trans (cell_final m c), (h c).2.2⟩)
    (Cert.KernelIdeal.Value.run_blocks m ρ)

end Cert.GatedCell.Arr

end
-- ==== Proof.lean ====
/-
  The certificate of one gated recurrent cell step: a Pallas kernel tiled over the batch (32 tiles of 256 rows, the four
  gates' weights resident) against the jnp reference that forms all gates' pre-activations as one array.

  Over the extended reals both programs compute, at batch row r and hidden unit j, for each gate g,
      pre g r j = ((Σ_k x[r,k]·Wx[g,j,k]) + (Σ_k h[r,k]·Wh[g,j,k])) + (Σ_k n[r,k]·Wn[g,j,k]) + b[g,j],
      cell' = σ(pre 1)·cell + σ(pre 0)·tanh(pre 3),      hidden' = σ(pre 2)·tanh(cell'),
  with σ z = 1/(1 + e^(-z)).  The kernel's narrowing of its matmul inputs is the identity there, its products run into a
  zero accumulator (plain sums), it reads the weights transposed on the host (so the same products), and its one
  logistic operation is the reference's quotient spelling of it by definition.  The three sums and the bias are added in
  the same order on both sides, so the two results are equal term by term and the finiteness of the inputs is never used.

  Spec.lean states the two result functions; RefValue.lean reads the reference's run as them; Payload.lean and
  TileValue.lean read the kernel body's stores at an element of a tile; Arrays.lean carries tiles to arrays (block t of
  the result is what grid point t writes back, and the row blocks cover the arrays).  The frames are the generated ones;
  the reference's frame is its run with the results dropped; the idealization rewrote nothing.
-/
import proofs.«132061_j38792144618011_1_alg».proof.Defs
import proofs.«132061_j38792144618011_1_alg».proof.Proof.Gen.Kernel
import proofs.«132061_j38792144618011_1_alg».proof.Proof.Gen.Kernel.Skeleton
import proofs.«132061_j38792144618011_1_alg».proof.Proof.Gen.Kernel.Launch
import proofs.«132061_j38792144618011_1_alg».proof.Proof.Gen.Kernel.Points
import proofs.«132061_j38792144618011_1_alg».proof.Proof.Gen.Kernel.Frame
import proofs.«132061_j38792144618011_1_alg».proof.Proof.Gen.KernelIdeal
import proofs.«132061_j38792144618011_1_alg».proof.Proof.Gen.KernelIdeal.Skeleton
import proofs.«132061_j38792144618011_1_alg».proof.Proof.Gen.KernelIdeal.Launch
import proofs.«132061_j38792144618011_1_alg».proof.Proof.Gen.KernelIdeal.Points
import proofs.«132061_j38792144618011_1_alg».proof.Proof.Gen.KernelIdeal.Frame
import proofs.«132061_j38792144618011_1_alg».proof.Proof.Gen.ReferenceIdeal
import proofs.«132061_j38792144618011_1_alg».proof.Proof.Gen.Pre_finite_inputs
import proofs.«132061_j38792144618011_1_alg».proof.Proof.Gen.KernelIdeal.Value
import proofs.«132061_j38792144618011_1_alg».proof.Proof.Gen.ReferenceIdeal.Run
import proofs.«132061_j38792144618011_1_alg».proof.Proof.Gen.ReferenceIdeal.Read
import proofs.«132061_j38792144618011_1_alg».proof.Proof.RefValue
import proofs.«132061_j38792144618011_1_alg».proof.Proof.Arrays
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- Both programs end with the new hidden state and the new cell state of the arguments, which agree. -/
theorem algebraic : Cert.algebraic_KernelIdeal_ReferenceIdeal := by
  intro m ρ m' ρ' _ hagree
  refine ⟨_, _, Cert.GatedCell.Arr.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7⟩ := hagree c
    rw [h0, h1, h2, h3, h4, h5, h6, h7]
    exact (Cert.ReferenceIdeal.Read.val_main_v39_eq _ _ _ _ _ _ _ _).trans (Cert.GatedCell.Ref.hid_eq _ _ _ _ _ _ _ _)
  · obtain ⟨h0, h1, h2, h3, h4, h5, h6, h7⟩ := hagree c
    rw [h0, h1, h2, h3, h4, h5, h6, h7]
    exact (Cert.ReferenceIdeal.Read.val_main_v37_eq _ _ _ _ _ _ _ _).trans (Cert.GatedCell.Ref.cell_eq _ _ _ _ _ _ _ _)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
